-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1 : Shape := ⟨1, ![1]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg2 : IVec S2x800000 32) (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x800000 32 := (extractStridedSlice S1x800000 ![0, 0] · slices_S2x800000_S1x800000_0_0) main_arg2
  let main_v60 : IVec S800000 32 := shapeCast S800000 main_v59 shapeCasts_S1x800000_S800000
  let main_c_22 : IVec S_ 32 := constantI S_ 32 4294917296#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg2
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_v58 main_v68

def fn_part2 {F : FTy → Type} [FloatOps F] (main_arg2 : IVec S2x800000 32) (main_arg8 : FVec F S256 .f32) (main_arg9 : FVec F S256x128 .f32) (main_arg10 : FVec F S128 .f32) (main_arg11 : FVec F S128x1 .f32) (main_arg12 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg2 main_arg12 main_v48 main_v49 main_v50

def fn_part1 {F : FTy → Type} [FloatOps F] (main_arg2 : IVec S2x800000 32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_arg11 : FVec F S128x1 .f32) (main_arg12 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S50000x128 .f32) (main_arg1 : FVec F S1 .f32) (main_arg2 : IVec S2x800000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_v13 main_v16
-- ==== Kernel.lean ====
abbrev S50000x128 : Shape := ⟨2, ![50000, 128]⟩
abbrev S1 : Shape := ⟨1, ![1]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S1x128 : Shape := ⟨2, ![1, 128]⟩
abbrev S50000x1 : Shape := ⟨2, ![50000, 1]⟩

abbrev nBuf : Space → Nat
  | .hbm => 79
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S2x800000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x128, .f32⟩
  | .hbm, ⟨36, _⟩ => ⟨S800000x128, .i1⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S1, .i32⟩
  | .hbm, ⟨55, _⟩ => ⟨S_, .i32⟩
  | .hbm, ⟨56, _⟩ => ⟨S800000x1, .i32⟩
  | .hbm, ⟨57, _⟩ => ⟨S800000x1, .i1⟩
  | .hbm, ⟨58, _⟩ => ⟨S1x1, .i32⟩
  | .hbm, ⟨59, _⟩ => ⟨S800000x1, .i32⟩
  | .hbm, ⟨60, _⟩ => ⟨S800000x1, .i1⟩
  | .hbm, ⟨61, _⟩ => ⟨S800000x1, .i1⟩
  | .hbm, ⟨62, _⟩ => ⟨S_, .i1⟩
  | .hbm, ⟨63, _⟩ => ⟨S800000, .i1⟩
  | .hbm, ⟨64, _⟩ => ⟨S800000x256, .f32⟩
  | .hbm, ⟨65, _⟩ => ⟨S800000x256, .i1⟩
  | .hbm, ⟨66, _⟩ => ⟨S_, .f32⟩
  | .hbm, ⟨67, _⟩ => ⟨S800000x256, .f32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S50000x1, .f32⟩
  | .hbm, ⟨76, _⟩ => ⟨S1x1, .f32⟩
  | .hbm, ⟨77, _⟩ => ⟨S50000x1, .f32⟩
  | .hbm, ⟨78, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_cst : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v10 : Ref sig .tc := ⟨.hbm, 68, rfl⟩
abbrev main_cst_0 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_v8) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S1 : Shape := ⟨1, ![1]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S50000x1 : Shape := ⟨2, ![50000, 1]⟩
abbrev S1x1 : Shape := ⟨2, ![1, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S2x800000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .i1⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .i1⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .i1⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .i1⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x1, .f32⟩
  | .hbm, ⟨90, _⟩ => ⟨S1x1, .f32⟩
  | .hbm, ⟨91, _⟩ => ⟨S50000x1, .f32⟩
  | .hbm, ⟨92, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.TakeInRange.lean ====
/-
  The kernel gathers neighbour rows with an out-of-range guard: a gathered row is kept where the (wrapped) source
  node id lies in `[0, 49999]` and replaced by a fill word elsewhere. Under the precondition every source id `s`
  satisfies `-50000 ≤ s < 50000`; a negative id is wrapped by adding 50000, so the wrapped id always lies in
  `[0, 49999]`, the guard is true on every edge, and the guarded gather is the plain gather.
-/
import proofs.«411502_j87282325390050_1_alg».proof.Defs
import proofs.«411502_j87282325390050_1_alg».proof.Proof.Gen.KernelIdeal
import proofs.«411502_j87282325390050_1_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Facts₀ Cert.KernelIdeal.Facts Idealize.ShloMosaic Idealize.ShloMosaic.ValueIdx Idealize.SL.Sem

/-- The source node id of every edge: row 0 of the edge list. -/
def src (e : IVec S2x800000 32) : IVec S800000 32 :=
  shapeCast S800000 (extractStridedSlice S1x800000 ![0, 0] e slices_S2x800000_S1x800000_0_0) shapeCasts_S1x800000_S800000

/-- The source ids with a negative id wrapped once (50000 added). -/
def wrapped (e : IVec S2x800000 32) : IVec S800000 32 :=
  select (cmpi .slt (src e) (broadcastInDim S800000 ![] bcast_S_S800000 (constantI S_ 32 0#32)))
    (addi (src e) (broadcastInDim S800000 ![] bcast_S_S800000 (constantI S_ 32 50000#32))) (src e)

/-- The wrapped ids as the gather's start indices, one per edge. -/
def starts (e : IVec S2x800000 32) : IVec S800000x1 32 :=
  broadcastInDim S800000x1 ![0] bcast_S800000_S800000x1_0 (wrapped e)

/-- The guard: per edge, whether its start index lies in `[0, 49999]`. -/
def guard (e : IVec S2x800000 32) : IVec S800000 1 :=
  Host.reduce IntOp.andi
    (andi (cmpi .sge (starts e) (broadcastInDim S800000x1 ![] bcast_S_S800000x1 (constantI S_ 32 0#32)))
      (cmpi .sle (starts e) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Every source id, read as a signed integer, lies in `[-50000, 50000)`. -/
def InRange (e : IVec S2x800000 32) : Prop :=
  ∀ k : S800000.Idx, (-50000 : Int) ≤ (src e k).toInt ∧ (src e k).toInt < 50000

/-- A left fold by `and` from 1 over one-bit words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A word in [-50000, 50000), wrapped once when negative, lies in [0, 49999]. -/
private theorem wrap_range (x : BitVec 32) (h : (-50000 : Int) ≤ x.toInt ∧ x.toInt < 50000) :
    (0 : Int) ≤ (Scalar.select (IntOp.cmpi .slt x 0#32) (IntOp.addi x 50000#32) x).toInt ∧
      (Scalar.select (IntOp.cmpi .slt x 0#32) (IntOp.addi x 50000#32) x).toInt ≤ 49999 := by
  have h0 : (0#32 : BitVec 32).toInt = 0 := by decide
  have h5 : (50000#32 : BitVec 32).toInt = 50000 := by decide
  by_cases hx : x.toInt < 0
  · have hc : IntOp.cmpi .slt x 0#32 = 1#1 := IntOp.cmpi_slt.2 (by rw [h0]; exact hx)
    rw [hc, select_one]
    have : (IntOp.addi x 50000#32).toInt = x.toInt + 50000 := by
      unfold IntOp.addi
      rw [BitVec.toInt_add, h5]
      exact Int.bmod_eq_of_le_mul_two (by omega) (by omega)
    omega
  · have hc : ¬ IntOp.cmpi .slt x 0#32 = 1#1 := fun hc => hx (by have := IntOp.cmpi_slt.1 hc; rwa [h0] at this)
    rw [eq_zero_of_ne_one hc, select_zero]
    omega

/-- The wrapped id of every edge lies in [0, 49999]. -/
private theorem wrapped_range (e : IVec S2x800000 32) (h : InRange e) (k : S800000.Idx) :
    (0 : Int) ≤ (wrapped e k).toInt ∧ (wrapped e k).toInt ≤ 49999 :=
  wrap_range (src e k) (h k)

/-- Under the range hypothesis the guard is true on every edge. -/
theorem guard_ones (e : IVec S2x800000 32) (h : InRange e) : guard e = fun _ => 1#1 := by
  funext j
  unfold guard
  rw [Host.reduce_eq_foldl]
  refine foldl_andi_ones _ _ fun i _ => ?_
  have h0 : (0#32 : BitVec 32).toInt = 0 := by decide
  have h9 : (49999#32 : BitVec 32).toInt = 49999 := by decide
  simp only [andi, cmpi, starts, broadcastInDim, constantI]
  rw [IntOp.andi_eq_one, IntOp.cmpi_sge, IntOp.cmpi_sle, h0, h9]
  exact wrapped_range e h _

/-- So the guarded selection of 128-wide gathered rows keeps every row. -/
theorem select_guard128 {F : FTy → Type} [FloatOps F] (e : IVec S2x800000 32) (h : InRange e) (g fill : FVec F S800000x128 .f32) :
    select (broadcastInDim S800000x128 ![0] bcast_S800000_S800000x128_0 (guard e)) g fill = g := by
  rw [guard_ones e h]
  funext i
  exact select_one (g i) (fill i)

/-- And of 256-wide rows. -/
theorem select_guard256 {F : FTy → Type} [FloatOps F] (e : IVec S2x800000 32) (h : InRange e) (g fill : FVec F S800000x256 .f32) :
    select (broadcastInDim S800000x256 ![0] bcast_S800000_S800000x256_0 (guard e)) g fill = g := by
  rw [guard_ones e h]
  funext i
  exact select_one (g i) (fill i)

private instance : Subsingleton Cert.Pre_finite_inputs.S_.Idx := ⟨fun _ _ => funext fun d => d.elim0⟩

/-- The last conjunct of the printed precondition, read at one edge: the source id is at least -50000 and below 50000,
    both compared signed. The float conjuncts before it stay closed: they are operands, not opened. -/
private theorem pre_last {F : FTy → Type} [FloatOps F] [Cert.Pre_finite_inputs.Facts]
    (a2 : IVec Cert.Pre_finite_inputs.S2x800000 32) (a12 : FVec F Cert.Pre_finite_inputs.S1 .f32)
    (v48 : IVec Cert.Pre_finite_inputs.S_ 1) (v49 v50 : FVec F Cert.Pre_finite_inputs.S128x1 .f32)
    (i : Cert.Pre_finite_inputs.S_.Idx)
    (h : Cert.Pre_finite_inputs.fn_part3 (F := F) a2 a12 v48 v49 v50 i = 1#1) (k : S800000.Idx) :
    (-50000 : Int) ≤ (src a2 k).toInt ∧ (src a2 k).toInt < 50000 := by
  have h2 := (IntOp.andi_eq_one.1 h).2
  have h3 := Host.reduce_andi_all _ _ _ _ _ h2 k
  obtain ⟨h4, h5⟩ := IntOp.andi_eq_one.1 h3
  have h6 := IntOp.cmpi_sge.1 h4
  have h7 := IntOp.cmpi_slt.1 h5
  have hm : (4294917296#32 : BitVec 32).toInt = -50000 := by decide
  have hp : (50000#32 : BitVec 32).toInt = 50000 := by decide
  have h8 : (4294917296#32 : BitVec 32).toInt ≤ (src a2 k).toInt := h6
  have h9 : (src a2 k).toInt < (50000#32 : BitVec 32).toInt := h7
  rw [hm] at h8
  rw [hp] at h9
  exact ⟨h8, h9⟩

/-- The precondition's last conjunct says exactly that the edge list's source ids are in range. -/
theorem inRange_of_pre [Cert.Pre_finite_inputs.Facts] (m : (ℓ : Loc nD τ sig) → Buf (Elt Ideal) ℓ) (h : Cert.Pre_KernelIdeal m)
    (c : Dev nD) : InRange (m ((c.tc : Thread nD τ).loc main_arg2)) := by
  intro k
  exact pre_last (F := Ideal) _ _ _ _ _ (fun d => d.elim0) (congrFun (h c) _) k

end Cert.KernelIdeal.Take

end
-- ==== Proof.Spec.lean ====
/-
  The mathematics both programs compute, stated once, index by index, on the extended reals.

  One graph convolution of this network sends a node-feature matrix `h` (one row per node) to
  `mlp2 (h + A h)`, where `A h` adds to every node the rows of its in-neighbours, and `mlp2` is two dense
  layers, each an exact matrix product plus a bias row followed by the leaky rectifier. Only `mlp2` is
  spelt out here: the neighbour sum is the same host operations in both programs and is carried as one
  opaque function of its operands.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- The leaky rectifier on the extended reals: `z` itself where `0 ≤ z`, otherwise the slope times `z`. The
    threshold is the f32 zero word and the slope the f32 word `0x3E4CCCCD` (the format's nearest value to one
    fifth): the two words both programs carry, never evaluated. -/
def leaky (z : EReal) : EReal :=
  Scalar.select (Ideal.cmp .oge z (Ideal.ofBits .f32 0x00000000#32)) z (Ideal.ofBits .f32 0x3E4CCCCD#32 * z)

/-- One dense layer followed by the rectifier: entry `(i, j)` is `leaky (∑ₖ h[i,k] · W[k,j] + bias[j])`. -/
def dense {n a b : Nat} (h : FVec Ideal ⟨2, ![n, a]⟩ .f32) (W : FVec Ideal ⟨2, ![a, b]⟩ .f32)
    (bias : FVec Ideal ⟨1, ![b]⟩ .f32) : FVec Ideal ⟨2, ![n, b]⟩ .f32 :=
  fun i => leaky ((∑ k : Fin a, h (ix2 (i 0) k) * W (ix2 k (i 1))) + bias (ix1 (i 1)))

/-- The layer read at explicit coordinates. -/
theorem dense_apply {n a b : Nat} (h : FVec Ideal ⟨2, ![n, a]⟩ .f32) (W : FVec Ideal ⟨2, ![a, b]⟩ .f32)
    (bias : FVec Ideal ⟨1, ![b]⟩ .f32) (p : Fin n) (q : Fin b) :
    dense h W bias (ix2 p q) = leaky ((∑ k : Fin a, h (ix2 p k) * W (ix2 k q)) + bias (ix1 q)) := rfl

/-- The two-layer perceptron of one graph convolution: `dense` twice. Row `i` of the result depends on row `i`
    of `h` alone, which is why a row block of the result is the perceptron of that row block. -/
def mlp2 {n a b d : Nat} (h : FVec Ideal ⟨2, ![n, a]⟩ .f32) (Wa : FVec Ideal ⟨2, ![a, b]⟩ .f32)
    (ba : FVec Ideal ⟨1, ![b]⟩ .f32) (Wb : FVec Ideal ⟨2, ![b, d]⟩ .f32) (bb : FVec Ideal ⟨1, ![d]⟩ .f32) :
    FVec Ideal ⟨2, ![n, d]⟩ .f32 :=
  dense (dense h Wa ba) Wb bb

/-- The perceptron read at explicit coordinates: the inner layer appears at `(p, k)` only. -/
theorem mlp2_apply {n a b d : Nat} (h : FVec Ideal ⟨2, ![n, a]⟩ .f32) (Wa : FVec Ideal ⟨2, ![a, b]⟩ .f32)
    (ba : FVec Ideal ⟨1, ![b]⟩ .f32) (Wb : FVec Ideal ⟨2, ![b, d]⟩ .f32) (bb : FVec Ideal ⟨1, ![d]⟩ .f32)
    (p : Fin n) (q : Fin d) :
    mlp2 h Wa ba Wb bb (ix2 p q)
      = leaky ((∑ k : Fin b, leaky ((∑ l : Fin a, h (ix2 p l) * Wa (ix2 l k)) + ba (ix1 k)) * Wb (ix2 k q)) + bb (ix1 q)) := rfl

/-- Rows decide rows: if two feature matrices agree on row `p` (of one) and row `p'` (of the other), their
    perceptrons agree on those rows. This is all a row-tiled evaluation needs. -/
theorem mlp2_row {n n' a b d : Nat} (h : FVec Ideal ⟨2, ![n, a]⟩ .f32) (h' : FVec Ideal ⟨2, ![n', a]⟩ .f32)
    (Wa : FVec Ideal ⟨2, ![a, b]⟩ .f32) (ba : FVec Ideal ⟨1, ![b]⟩ .f32) (Wb : FVec Ideal ⟨2, ![b, d]⟩ .f32)
    (bb : FVec Ideal ⟨1, ![d]⟩ .f32) (p : Fin n) (p' : Fin n') (hrow : ∀ l : Fin a, h (ix2 p l) = h' (ix2 p' l)) (q : Fin d) :
    mlp2 h Wa ba Wb bb (ix2 p q) = mlp2 h' Wa ba Wb bb (ix2 p' q) := by
  rw [mlp2_apply, mlp2_apply]
  simp only [hrow]

end Cert.Gin

end
-- ==== Proof.Payload0.lean ====
/-
  The arithmetic of one tile of graph convolution 1's perceptron. The body casts the tile's rows and the first weight
  matrix to bf16 and multiplies them into a zero accumulator, adds the first bias row down the rows, applies the leaky
  rectifier, casts again, multiplies by the second weight matrix, adds the second bias row and rectifies again. On the
  extended reals a change of float format is the identity and a matrix product into a zero accumulator is the sum over
  the contracted axis of the products, so the stored value is `Cert.Gin.mlp2` of the tile, entry by entry.
-/
import proofs.«411502_j87282325390050_1_alg».proof.Proof.Gen.KernelIdeal.Skeleton
import proofs.«411502_j87282325390050_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Conv1

open Cert.KernelIdeal Cert.KernelIdeal.Gen Idealize.ShloMosaic Idealize.ShloMosaic.ValueIdx Idealize.SL.Sem

/-! ## The matrix product `[2000, 128] · [128, 256]` into a zero accumulator, read at an entry -/

/-- The left operand's row coordinate is the entry's row. -/
private theorem lhs_first_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column coordinate is the contracted index. -/
private theorem lhs_first_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row coordinate is the contracted index. -/
private theorem rhs_first_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column coordinate is the entry's column. -/
private theorem rhs_first_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, q)` of the product into a zero accumulator is `∑ₖ lhs[p,k] · rhs[k,q]`. -/
theorem matmul_first_apply {φ₁ φ₂ : FTy} (lhs : FVec Ideal S2000x128 φ₁) (rhs : FVec Ideal S128x256 φ₂) (p : Fin 2000) (q : Fin 256) :
    matmul dot_S2000x128_S128x256_S2000x256_1_0_0_1_n_n none lhs rhs (constant (F := Ideal) S2000x256 .f32 0x00000000#32) (ix2 p q)
      = ∑ k : Fin 128, lhs (ix2 p k) * rhs (ix2 k q) := by
  refine (Ideal.matmul_constant_zero_apply dot_S2000x128_S128x256_S2000x256_1_0_0_1_n_n none lhs rhs (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_first_0 _ _).trans hk
    | ⟨1, _⟩ => exact rhs_first_1 _ _)
  rw [el, er]

/-! ## The matrix product `[2000, 256] · [256, 256]` into a zero accumulator, read at an entry -/

/-- The left operand's row coordinate is the entry's row. -/
private theorem lhs_second_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contracted index. -/
private theorem lhs_second_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row coordinate is the contracted index. -/
private theorem rhs_second_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column coordinate is the entry's column. -/
private theorem rhs_second_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry `(p, q)` of the product into a zero accumulator is `∑ₖ lhs[p,k] · rhs[k,q]`. -/
theorem matmul_second_apply {φ₁ φ₂ : FTy} (lhs : FVec Ideal S2000x256 φ₁) (rhs : FVec Ideal S256x256 φ₂) (p : Fin 2000) (q : Fin 256) :
    matmul dot_S2000x256_S256x256_S2000x256_1_0_0_1_n_n none lhs rhs (constant (F := Ideal) S2000x256 .f32 0x00000000#32) (ix2 p q)
      = ∑ k : Fin 256, lhs (ix2 p k) * rhs (ix2 k q) := by
  refine (Ideal.matmul_constant_zero_apply dot_S2000x256_S256x256_S2000x256_1_0_0_1_n_n none lhs rhs (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The bias row and the rectifier, read at an entry -/

/-- A bias vector cast to one row and repeated down the rows reads, at `(p, q)`, the vector at `q`. -/
private theorem bias_row_apply {n b : Nat} (v : FVec Ideal ⟨1, ![b]⟩ .f32) (h1 : (⟨1, ![b]⟩ : Shape).ShapeCasts ⟨2, ![1, b]⟩)
    (h2 : (⟨2, ![1, b]⟩ : Shape).Broadcasts ⟨2, ![n, b]⟩) (p : Fin n) (q : Fin b) :
    broadcastTo ⟨2, ![n, b]⟩ (shapeCast ⟨2, ![1, b]⟩ v h1) h2 (ix2 p q) = v (ix1 q) := by
  rw [broadcastTo_1b_ab_apply, shapeCast_a_1a_apply]

/-- The compare-scale-select triple the body applies after each bias is the leaky rectifier, entry by entry. -/
private theorem leaky_apply {s : Shape} (z : FVec Ideal s .f32) (i : s.Idx) :
    select (cmpf .oge z (broadcast s (Scalar.ofBits (F := Ideal) .f32 0x00000000#32))) z
      (mulf (broadcast s (Scalar.ofBits (F := Ideal) .f32 0x3E4CCCCD#32)) z) i = Cert.Gin.leaky (z i) := rfl

/-! ## The stored value -/

/-- What the body stores, as a function of the five blocks it loads, is the two-layer perceptron of the row tile. -/
theorem payload_eq (v0 : Vec Ideal S2000x128 .f32) (v3 : Vec Ideal S128x256 .f32) (v6 : Vec Ideal S256 .f32)
    (v16 : Vec Ideal S256x256 .f32) (v19 : Vec Ideal S256 .f32) :
    k0_pay1 (F := Ideal) v0 v3 v6 v16 v19 = Cert.Gin.mlp2 v0 v3 v6 v16 v19 := by
  funext j
  obtain ⟨p, q, rfl⟩ : ∃ (p : Fin 2000) (q : Fin 256), j = ix2 p q := ⟨j 0, j 1, eq_ix2 j⟩
  rw [Cert.Gin.mlp2_apply]
  unfold k0_pay1
  simp only [leaky_apply, addf_apply, matmul_second_apply, truncf_apply, matmul_first_apply, bias_row_apply, shapeCast_self]

end Cert.KernelIdeal.Conv1

end
-- ==== Proof.Region0.lean ====
/-
  Graph convolution 1, the perceptron on the chip: the launch walks the 50000 node rows in 25 tiles of 2000 rows, and on each
  tile the body computes the two dense layers of `Cert.Gin.mlp2` on the tile's rows from the whole weight matrices
  and bias rows. A row of the perceptron depends on that row of its input alone, so tile `t` of the result array is
  rows `2000 t … 2000 t + 1999` of the perceptron of the whole input, the tiles cover every row, and the array the
  launch leaves is the perceptron of the array it found.
-/
import proofs.«411502_j87282325390050_1_alg».proof.Proof.Gen.KernelIdeal.Frame
import proofs.«411502_j87282325390050_1_alg».proof.Proof.Spec
import proofs.«411502_j87282325390050_1_alg».proof.Proof.Payload0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv1

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when the launch is entered: whatever they are
variable (V : (c : Dev nD) → (b : Ref sig .tc) → Buf (Elt Ideal) ((c : Thread nD τ).loc b))

/-- The zero offsets of a whole rank-2 block, in the spelling the body's rectangles carry. -/
private theorem zero_off2 : (![0, 0] : Fin 2 → Nat) = fun _ => 0 := funext fun a => by fin_cases a <;> rfl
/-- The same for a whole rank-1 block. -/
private theorem zero_off1 : (![0] : Fin 1 → Nat) = fun _ => 0 := funext fun a => by fin_cases a <;> rfl

/-- The index maps over the 25 tiles: at point `t` the feature tile and the result tile are row tile `t` (column block 0),
    and the blocks of the two weight matrices and the two bias rows are block 0 on every axis, whatever `t`. -/
private theorem tile_maps : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- No tile index passes the last tile. -/
private theorem tile_bound : ∀ t : Fin cfg0.N, win0_5.index t (0 : Fin 2) ≤ 24 :=
  (by decide +kernel : ∀ t : Fin grid0.N, _)

/-- Every one of the 25 row tiles is some point's. -/
private theorem tile_onto : ∀ q : Fin 25, ∃ t : Fin cfg0.N, win0_5.index t = ![q.val, 0] :=
  (by decide +kernel : ∀ q : Fin 25, ∃ t : Fin grid0.N, win0_5.index t = ![q.val, 0])

/-- What the body stores is the perceptron of the blocks it loads. -/
private theorem stored_eq (x0 : Vec Ideal S2000x128 .f32) (x1 : Vec Ideal S128x256 .f32) (x2 : Vec Ideal S256 .f32)
    (x3 : Vec Ideal S256x256 .f32) (x4 : Vec Ideal S256 .f32) :
    out0_5 (F := Ideal) x0 x1 x2 x3 x4 = Cert.Gin.mlp2 x0 x1 x2 x3 x4 := by
  unfold out0_5
  rw [View.canon_unit_zero zero_off2]
  simp only [View.ld_unit_zero (S := S2000x128) zero_off2, View.ld_unit_zero (S := S128x256) zero_off2,
    View.ld_unit_zero (S := S256x256) zero_off2, View.ld_unit_zero (S := S256) zero_off1]
  exact payload_eq x0 x1 x2 x3 x4

/-- The first weight matrix's block at any tile is the whole matrix. -/
private theorem block_Wa (c : Dev nD) (t : Fin cfg0.N) : iblk0 (F := Ideal) V c 1 t = V c main_arg3 := by
  obtain ⟨-, -, e0, e1, -⟩ := tile_maps t
  funext j
  show V c main_arg3 (((cfg0.win 1).blk t).view.emb j) = V c main_arg3 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 256 + 1 * (j 1).val = (j 1).val; omega

/-- The first bias row's block at any tile is the whole row. -/
private theorem block_ba (c : Dev nD) (t : Fin cfg0.N) : iblk0 (F := Ideal) V c 2 t = V c main_arg4 := by
  obtain ⟨-, -, -, -, e0, -⟩ := tile_maps t
  funext j
  show V c main_arg4 (((cfg0.win 2).blk t).view.emb j) = V c main_arg4 j
  refine congrArg _ (funext fun a => Fin.ext ?_)
  match a with
  | ⟨0, _⟩ => show win0_2.index t (0 : Fin 1) * 256 + 1 * (j 0).val = (j 0).val; omega

/-- The second weight matrix's block at any tile is the whole matrix. -/
private theorem block_Wb (c : Dev nD) (t : Fin cfg0.N) : iblk0 (F := Ideal) V c 3 t = V c main_arg5 := by
  obtain ⟨-, -, -, -, -, e0, e1, -⟩ := tile_maps t
  funext j
  show V c main_arg5 (((cfg0.win 3).blk t).view.emb j) = V c main_arg5 j
  refine congrArg _ (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- The second bias row's block at any tile is the whole row. -/
private theorem block_bb (c : Dev nD) (t : Fin cfg0.N) : iblk0 (F := Ideal) V c 4 t = V c main_arg6 := by
  obtain ⟨-, -, -, -, -, -, -, e0, -⟩ := tile_maps t
  funext j
  show V c main_arg6 (((cfg0.win 4).blk t).view.emb j) = V c main_arg6 j
  refine congrArg _ (funext fun a => Fin.ext ?_)
  match a with
  | ⟨0, _⟩ => show win0_4.index t (0 : Fin 1) * 256 + 1 * (j 0).val = (j 0).val; omega

/-- Row `p` of tile `t` is row `2000 t + p` of the 50000 node rows. -/
private def tileRow (t : Fin cfg0.N) (p : Fin 2000) : Fin 50000 :=
  ⟨win0_5.index t (0 : Fin 2) * 2000 + p.val, by
    have h := (tile_bound t); have := p.isLt; omega⟩

/-- The feature tile at `t`, read at row `p`, is the feature array read at row `2000 t + p`. -/
private theorem feat_row (c : Dev nD) (t : Fin cfg0.N) (p : Fin 2000) (l : Fin 128) :
    (iblk0 (F := Ideal) V c 0 t : Vec Ideal S2000x128 .f32) (ix2 p l) = (V c main_v8 : Vec Ideal S50000x128 .f32) (ix2 (tileRow t p) l) := by
  obtain ⟨e0, e1, -⟩ := tile_maps t
  show V c main_v8 (((cfg0.win 0).blk t).view.emb (ix2 p l)) = V c main_v8 (ix2 (tileRow t p) l)
  refine congrArg _ (funext fun a => Fin.ext ?_)
  match a with
  | ⟨0, _⟩ => show win0_0.index t (0 : Fin 2) * 2000 + 1 * p.val = win0_5.index t (0 : Fin 2) * 2000 + p.val; omega
  | ⟨1, _⟩ => show win0_0.index t (1 : Fin 2) * 128 + 1 * l.val = l.val; omega

/-- Entry `(p, q)` of the result tile at `t` sits at `(2000 t + p, q)` in the result array. -/
private theorem out_at (t : Fin cfg0.N) (p : Fin 2000) (q : Fin 256) :
    ((cfg0.win 5).blk t).view.emb (ix2 p q) = (ix2 (tileRow t p) q : S50000x256.Idx) := by
  obtain ⟨-, -, -, -, -, -, -, -, -, e1⟩ := tile_maps t
  refine funext fun a => Fin.ext ?_
  match a with
  | ⟨0, _⟩ => show win0_5.index t (0 : Fin 2) * 2000 + 1 * p.val = win0_5.index t (0 : Fin 2) * 2000 + p.val; omega
  | ⟨1, _⟩ => show win0_5.index t (1 : Fin 2) * 256 + 1 * q.val = q.val; omega

/-- What tile `t` writes back is tile `t` of the perceptron of the whole feature array. -/
private theorem tile_value (c : Dev nD) (t : Fin cfg0.N) :
    (dat0 (F := Ideal) V c).flushed 5 t = ((cfg0.win 5).blk t).view.read (Elt Ideal)
      (Cert.Gin.mlp2 (V c main_v8) (V c main_arg3) (V c main_arg4) (V c main_arg5) (V c main_arg6)) := by
  show (cfg0.win 5).cut (grid0.coords t) ((dat0 V c).after 5 t) = _
  rw [after0_5, stored_eq, block_Wa, block_ba, block_Wb, block_bb]
  funext j
  obtain ⟨p, q, rfl⟩ : ∃ (p : Fin 2000) (q : Fin 256), j = ix2 p q := ⟨j 0, j 1, eq_ix2 j⟩
  show Cert.Gin.mlp2 (iblk0 V c 0 t) (V c main_arg3) (V c main_arg4) (V c main_arg5) (V c main_arg6) (ix2 p q)
    = Cert.Gin.mlp2 (V c main_v8) (V c main_arg3) (V c main_arg4) (V c main_arg5) (V c main_arg6) (((cfg0.win 5).blk t).view.emb (ix2 p q))
  rw [out_at t p q]
  exact Cert.Gin.mlp2_row _ _ _ _ _ _ p (tileRow t p) (fun l => feat_row V c t p l) q

/-- An index of the result array is in tile `t` iff each coordinate is in the tile's range on its axis. -/
private theorem mem_tile (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v9).slice (win0_5.rect t)).set ↔ _
  rw [View.set_slice_whole, Rect.mem_set_unit]
  exact Iff.rfl

/-- Row `r` of the result array lies in tile `r / 2000`: the 25 tiles cover all 50000 rows. -/
private theorem tiles_cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := tile_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_tile]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the launch the result array is the two-layer perceptron of the feature array the launch found, with the
    weights and biases it found. -/
theorem region_value (c : Dev nD) :
    (dat0 (F := Ideal) V c).arrAt 5 cfg0.N
      = Cert.Gin.mlp2 (V c main_v8) (V c main_arg3) (V c main_arg4) (V c main_arg5) (V c main_arg6) :=
  (dat0 (F := Ideal) V c).arrAt_eq_of_cover 5 _ (fun t _ => tile_value V c t) tiles_cover

end Cert.KernelIdeal.Conv1

end
-- ==== Proof.Payload1.lean ====
/-
  The arithmetic of one tile of graph convolution 2's perceptron. The body casts the tile's rows and the first weight
  matrix to bf16 and multiplies them into a zero accumulator, adds the first bias row down the rows, applies the leaky
  rectifier, casts again, multiplies by the second weight matrix, adds the second bias row and rectifies again. On the
  extended reals a change of float format is the identity and a matrix product into a zero accumulator is the sum over
  the contracted axis of the products, so the stored value is `Cert.Gin.mlp2` of the tile, entry by entry.
-/
import proofs.«411502_j87282325390050_1_alg».proof.Proof.Gen.KernelIdeal.Skeleton
import proofs.«411502_j87282325390050_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Conv2

open Cert.KernelIdeal Cert.KernelIdeal.Gen Idealize.ShloMosaic Idealize.ShloMosaic.ValueIdx Idealize.SL.Sem

/-! ## The matrix product `[2000, 256] · [256, 256]` into a zero accumulator, read at an entry -/

/-- The left operand's row coordinate is the entry's row. -/
private theorem lhs_first_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contracted index. -/
private theorem lhs_first_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row coordinate is the contracted index. -/
private theorem rhs_first_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column coordinate is the entry's column. -/
private theorem rhs_first_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry `(p, q)` of the product into a zero accumulator is `∑ₖ lhs[p,k] · rhs[k,q]`. -/
theorem matmul_first_apply {φ₁ φ₂ : FTy} (lhs : FVec Ideal S2000x256 φ₁) (rhs : FVec Ideal S256x256 φ₂) (p : Fin 2000) (q : Fin 256) :
    matmul dot_S2000x256_S256x256_S2000x256_1_0_0_1_n_n none lhs rhs (constant (F := Ideal) S2000x256 .f32 0x00000000#32) (ix2 p q)
      = ∑ k : Fin 256, lhs (ix2 p k) * rhs (ix2 k q) := by
  refine (Ideal.matmul_constant_zero_apply dot_S2000x256_S256x256_S2000x256_1_0_0_1_n_n none lhs rhs (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_first_0 _ _
    | ⟨1, _⟩ => exact (lhs_first_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_first_0 _ _).trans hk
    | ⟨1, _⟩ => exact rhs_first_1 _ _)
  rw [el, er]

/-! ## The matrix product `[2000, 256] · [256, 128]` into a zero accumulator, read at an entry -/

/-- The left operand's row coordinate is the entry's row. -/
private theorem lhs_second_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contracted index. -/
private theorem lhs_second_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contracted index. -/
private theorem rhs_second_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the entry's column. -/
private theorem rhs_second_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of the product into a zero accumulator is `∑ₖ lhs[p,k] · rhs[k,q]`. -/
theorem matmul_second_apply {φ₁ φ₂ : FTy} (lhs : FVec Ideal S2000x256 φ₁) (rhs : FVec Ideal S256x128 φ₂) (p : Fin 2000) (q : Fin 128) :
    matmul dot_S2000x256_S256x128_S2000x128_1_0_0_1_n_n none lhs rhs (constant (F := Ideal) S2000x128 .f32 0x00000000#32) (ix2 p q)
      = ∑ k : Fin 256, lhs (ix2 p k) * rhs (ix2 k q) := by
  refine (Ideal.matmul_constant_zero_apply dot_S2000x256_S256x128_S2000x128_1_0_0_1_n_n none lhs rhs (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The bias row and the rectifier, read at an entry -/

/-- A bias vector cast to one row and repeated down the rows reads, at `(p, q)`, the vector at `q`. -/
private theorem bias_row_apply {n b : Nat} (v : FVec Ideal ⟨1, ![b]⟩ .f32) (h1 : (⟨1, ![b]⟩ : Shape).ShapeCasts ⟨2, ![1, b]⟩)
    (h2 : (⟨2, ![1, b]⟩ : Shape).Broadcasts ⟨2, ![n, b]⟩) (p : Fin n) (q : Fin b) :
    broadcastTo ⟨2, ![n, b]⟩ (shapeCast ⟨2, ![1, b]⟩ v h1) h2 (ix2 p q) = v (ix1 q) := by
  rw [broadcastTo_1b_ab_apply, shapeCast_a_1a_apply]

/-- The compare-scale-select triple the body applies after each bias is the leaky rectifier, entry by entry. -/
private theorem leaky_apply {s : Shape} (z : FVec Ideal s .f32) (i : s.Idx) :
    select (cmpf .oge z (broadcast s (Scalar.ofBits (F := Ideal) .f32 0x00000000#32))) z
      (mulf (broadcast s (Scalar.ofBits (F := Ideal) .f32 0x3E4CCCCD#32)) z) i = Cert.Gin.leaky (z i) := rfl

/-! ## The stored value -/

/-- What the body stores, as a function of the five blocks it loads, is the two-layer perceptron of the row tile. -/
theorem payload_eq (v0 : Vec Ideal S2000x256 .f32) (v3 : Vec Ideal S256x256 .f32) (v6 : Vec Ideal S256 .f32)
    (v16 : Vec Ideal S256x128 .f32) (v19 : Vec Ideal S128 .f32) :
    k1_pay1 (F := Ideal) v0 v3 v6 v16 v19 = Cert.Gin.mlp2 v0 v3 v6 v16 v19 := by
  funext j
  obtain ⟨p, q, rfl⟩ : ∃ (p : Fin 2000) (q : Fin 128), j = ix2 p q := ⟨j 0, j 1, eq_ix2 j⟩
  rw [Cert.Gin.mlp2_apply]
  unfold k1_pay1
  simp only [leaky_apply, addf_apply, matmul_second_apply, truncf_apply, matmul_first_apply, bias_row_apply, shapeCast_self]

end Cert.KernelIdeal.Conv2

end
-- ==== Proof.Region1.lean ====
/-
  Graph convolution 2, the perceptron on the chip: the launch walks the 50000 node rows in 25 tiles of 2000 rows, and on each
  tile the body computes the two dense layers of `Cert.Gin.mlp2` on the tile's rows from the whole weight matrices
  and bias rows. A row of the perceptron depends on that row of its input alone, so tile `t` of the result array is
  rows `2000 t … 2000 t + 1999` of the perceptron of the whole input, the tiles cover every row, and the array the
  launch leaves is the perceptron of the array it found.
-/
import proofs.«411502_j87282325390050_1_alg».proof.Proof.Gen.KernelIdeal.Frame
import proofs.«411502_j87282325390050_1_alg».proof.Proof.Spec
import proofs.«411502_j87282325390050_1_alg».proof.Proof.Payload1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv2

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when the launch is entered: whatever they are
variable (V : (c : Dev nD) → (b : Ref sig .tc) → Buf (Elt Ideal) ((c : Thread nD τ).loc b))

/-! ## Where each tile sits -/

/-- The zero offsets of a rank-2 and of a rank-1 buffer, as constant functions: the body loads and stores each of its
    buffers whole, through the rectangle that starts at these offsets. -/
private theorem zero_offsets2 : (![0, 0] : Fin 2 → Nat) = fun _ => 0 := funext fun a => by fin_cases a <;> rfl
private theorem zero_offsets1 : (![0] : Fin 1 → Nat) = fun _ => 0 := funext fun a => by fin_cases a <;> rfl

/-- The block index of every window at grid point `t`, decided over the 25 points: the feature window and the result
    window sit at block `(t, 0)`, the two weight matrices and the two bias rows at block zero on every axis; and the
    grid has 25 points. -/
private theorem tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ t.val < 25 :=
  (by decide +kernel : ∀ t : Fin grid1.N, _)

/-- Every number below 25 is a grid point. -/
private theorem tile_onto : ∀ q : Fin 25, ∃ t : Fin cfg1.N, t.val = q.val :=
  (by decide +kernel : ∀ q : Fin 25, ∃ t : Fin grid1.N, t.val = q.val)

/-! ## The five input arrays and their blocks, each at its literal shape -/

/-- The feature array the launch finds: 50000 node rows of 256 features. -/
private abbrev featArr (c : Dev nD) : Vec Ideal S50000x256 .f32 := V c main_v14
/-- The first layer's weight matrix and bias row, the second layer's weight matrix and bias row, as the launch finds them. -/
private abbrev w1Arr (c : Dev nD) : Vec Ideal S256x256 .f32 := V c main_arg7
private abbrev b1Arr (c : Dev nD) : Vec Ideal S256 .f32 := V c main_arg8
private abbrev w2Arr (c : Dev nD) : Vec Ideal S256x128 .f32 := V c main_arg9
private abbrev b2Arr (c : Dev nD) : Vec Ideal S128 .f32 := V c main_arg10

/-- What the body loads at point `t`: 2000 rows of the features, and a block of each weight and bias array. -/
private abbrev featBlk (c : Dev nD) (t : Fin cfg1.N) : Vec Ideal S2000x256 .f32 := iblk1 V c 0 t
private abbrev w1Blk (c : Dev nD) (t : Fin cfg1.N) : Vec Ideal S256x256 .f32 := iblk1 V c 1 t
private abbrev b1Blk (c : Dev nD) (t : Fin cfg1.N) : Vec Ideal S256 .f32 := iblk1 V c 2 t
private abbrev w2Blk (c : Dev nD) (t : Fin cfg1.N) : Vec Ideal S256x128 .f32 := iblk1 V c 3 t
private abbrev b2Blk (c : Dev nD) (t : Fin cfg1.N) : Vec Ideal S128 .f32 := iblk1 V c 4 t

/-! An entry of a block sits in its array, on each axis, at block index × block size + 1 × its coordinate in the block.
    The weights' and biases' block index is zero and their block is as large as the array, so the block is the array. -/

/-- The first weight matrix's block at every point is the whole matrix. -/
private theorem w1Blk_eq (c : Dev nD) (t : Fin cfg1.N) : w1Blk V c t = w1Arr V c := by
  obtain ⟨-, -, e0, e1, -⟩ := tile_index t
  funext y
  show V c main_arg7 (((cfg1.win 1).blk t).view.emb y) = V c main_arg7 y
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The first bias row's block at every point is the whole row. -/
private theorem b1Blk_eq (c : Dev nD) (t : Fin cfg1.N) : b1Blk V c t = b1Arr V c := by
  obtain ⟨-, -, -, -, e0, -⟩ := tile_index t
  funext y
  show V c main_arg8 (((cfg1.win 2).blk t).view.emb y) = V c main_arg8 y
  refine congrArg _ ?_
  funext a; apply Fin.ext
  match a with
  | ⟨0, _⟩ => show win1_2.index t (0 : Fin 1) * 256 + 1 * (y 0).val = (y 0).val; omega

/-- The second weight matrix's block at every point is the whole matrix. -/
private theorem w2Blk_eq (c : Dev nD) (t : Fin cfg1.N) : w2Blk V c t = w2Arr V c := by
  obtain ⟨-, -, -, -, -, e0, e1, -⟩ := tile_index t
  funext y
  show V c main_arg9 (((cfg1.win 3).blk t).view.emb y) = V c main_arg9 y
  refine congrArg _ ?_
  funext a; apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- The second bias row's block at every point is the whole row. -/
private theorem b2Blk_eq (c : Dev nD) (t : Fin cfg1.N) : b2Blk V c t = b2Arr V c := by
  obtain ⟨-, -, -, -, -, -, -, e0, -⟩ := tile_index t
  funext y
  show V c main_arg10 (((cfg1.win 4).blk t).view.emb y) = V c main_arg10 y
  refine congrArg _ ?_
  funext a; apply Fin.ext
  match a with
  | ⟨0, _⟩ => show win1_4.index t (0 : Fin 1) * 128 + 1 * (y 0).val = (y 0).val; omega

/-- Row `p` of the feature block at point `t` is row `2000 t + p` of the feature array. -/
private theorem featBlk_apply (c : Dev nD) (t : Fin cfg1.N) (p : Fin 2000) (l : Fin 256)
    (hp : 2000 * t.val + p.val < 50000) :
    featBlk V c t (ix2 p l) = featArr V c (ix2 ⟨2000 * t.val + p.val, hp⟩ l) := by
  obtain ⟨e0, e1, -⟩ := tile_index t
  show V c main_v14 (((cfg1.win 0).blk t).view.emb (ix2 p l)) = V c main_v14 (ix2 ⟨2000 * t.val + p.val, hp⟩ l)
  refine congrArg _ ?_
  funext a; apply Fin.ext
  match a with
  | ⟨0, _⟩ => show win1_0.index t (0 : Fin 2) * 2000 + 1 * p.val = 2000 * t.val + p.val; omega
  | ⟨1, _⟩ => show win1_0.index t (1 : Fin 2) * 256 + 1 * l.val = l.val; omega

/-- Entry `(p, q)` of the result block at point `t` is entry `(2000 t + p, q)` of the result array. -/
private theorem resBlk_emb (t : Fin cfg1.N) (p : Fin 2000) (q : Fin 128) (hp : 2000 * t.val + p.val < 50000) :
    ((cfg1.win 5).blk t).view.emb (ix2 p q) = (ix2 ⟨2000 * t.val + p.val, hp⟩ q : S50000x128.Idx) := by
  obtain ⟨-, -, -, -, -, -, -, -, e0, e1, -⟩ := tile_index t
  funext a; apply Fin.ext
  match a with
  | ⟨0, _⟩ => show win1_5.index t (0 : Fin 2) * 2000 + 1 * p.val = 2000 * t.val + p.val; omega
  | ⟨1, _⟩ => show win1_5.index t (1 : Fin 2) * 128 + 1 * q.val = q.val; omega

/-! ## What a point writes back -/

/-- What point `t` writes back is block `t` of the perceptron of the whole feature array: the body stores the perceptron
    of the 2000 rows it loaded (with the whole weights and biases), a row of the perceptron depends on that row of the
    features alone, and row `p` of the loaded block is row `2000 t + p` of the array — the very row the result block's
    entry `(p, q)` names in the result array. -/
private theorem tile_written (c : Dev nD) (t : Fin cfg1.N) :
    (dat1 (F := Ideal) V c).flushed 5 t
      = ((cfg1.win 5).blk t).view.read (Elt Ideal)
          (Cert.Gin.mlp2 (V c main_v14) (V c main_arg7) (V c main_arg8) (V c main_arg9) (V c main_arg10)) := by
  show (cfg1.win 5).cut (grid1.coords t) ((dat1 V c).after 5 t) = _
  rw [after1_5]
  unfold out1_5
  rw [View.canon_unit_zero zero_offsets2]
  simp only [View.ld_unit_zero (S := S2000x256) zero_offsets2, View.ld_unit_zero (S := S256x256) zero_offsets2,
    View.ld_unit_zero (S := S256) zero_offsets1, View.ld_unit_zero (S := S256x128) zero_offsets2,
    View.ld_unit_zero (S := S128) zero_offsets1]
  rw [payload_eq]
  funext j
  obtain ⟨p, q, rfl⟩ : ∃ (p : Fin 2000) (q : Fin 128), j = ix2 p q := ⟨j 0, j 1, eq_ix2 j⟩
  obtain ⟨-, -, -, -, -, -, -, -, -, -, ht⟩ := tile_index t
  have hp : 2000 * t.val + p.val < 50000 := by have := p.isLt; omega
  show Cert.Gin.mlp2 (featBlk V c t) (w1Blk V c t) (b1Blk V c t) (w2Blk V c t) (b2Blk V c t) (ix2 p q)
    = Cert.Gin.mlp2 (featArr V c) (w1Arr V c) (b1Arr V c) (w2Arr V c) (b2Arr V c)
        (((cfg1.win 5).blk t).view.emb (ix2 p q))
  rw [resBlk_emb t p q hp, w1Blk_eq, b1Blk_eq, w2Blk_eq, b2Blk_eq]
  exact Cert.Gin.mlp2_row _ _ _ _ _ _ p ⟨2000 * t.val + p.val, hp⟩ (fun l => featBlk_apply V c t p l hp) q

/-! ## The tiles cover the result array -/

/-- An entry of the result array is in point `t`'s block iff each coordinate is in the block's range on its axis. -/
private theorem mem_tile (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v15).slice (win1_5.rect t)).set ↔ _
  rw [View.set_slice_whole, Rect.mem_set_unit]
  exact Iff.rfl

/-- Row `r` of the result array is written back by point `r / 2000`: 25 tiles of 2000 rows are all 50000 rows. -/
private theorem tiles_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := tile_onto ⟨(i 0).val / 2000, by omega⟩
  have ht' : t.val = (i 0).val / 2000 := ht
  obtain ⟨-, -, -, -, -, -, -, -, e0, e1, -⟩ := tile_index t
  refine ⟨t, flush1_5 t, ?_⟩
  rw [mem_tile]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- After the launch the result array is the two-layer perceptron of the feature array the launch found, with the
    weights and biases it found. -/
theorem region_value (c : Dev nD) :
    (dat1 (F := Ideal) V c).arrAt 5 cfg1.N
      = Cert.Gin.mlp2 (V c main_v14) (V c main_arg7) (V c main_arg8) (V c main_arg9) (V c main_arg10) :=
  (dat1 (F := Ideal) V c).arrAt_eq_of_cover 5
    (Cert.Gin.mlp2 (V c main_v14) (V c main_arg7) (V c main_arg8) (V c main_arg9) (V c main_arg10))
    (fun t _ => tile_written V c t) tiles_cover

end Cert.KernelIdeal.Conv2

end
-- ==== Proof.HostChain.lean ====
/-
  What the host operations of the kernel's program compute between its two launches, as functions of what they read.

  Both neighbour sums have one shape: gather, for every edge, the source node's feature row (kept where the wrapped
  source id is in range, replaced by a fill word elsewhere), add each gathered row into its destination node's row of
  a zero array, and add the result to the features. The head is one more matrix product with a bias.
  Each stretch of host operations is read once, over ANY contents it starts from; the contents at each boundary of
  the program are then instances.
-/
import proofs.«411502_j87282325390050_1_alg».proof.Proof.Gen.KernelIdeal.Frame
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]

/-- Row `r` of the edge list as a vector of node ids (`r = 0`: sources, `r = 1`: destinations). -/
def srcRow (e : IVec S2x800000 32) : IVec S800000 32 :=
  shapeCast S800000 (extractStridedSlice S1x800000 ![0, 0] e slices_S2x800000_S1x800000_0_0) shapeCasts_S1x800000_S800000
def dstRow (e : IVec S2x800000 32) : IVec S800000 32 :=
  shapeCast S800000 (extractStridedSlice S1x800000 ![1, 0] e slices_S2x800000_S1x800000_1_0) shapeCasts_S1x800000_S800000

/-- Source ids with a negative id wrapped once, as the gather's start indices. -/
def startsOf (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge: is its start index in `[0, 49999]`. -/
def guardOf (s : IVec S800000 32) : IVec S800000 1 :=
  Host.reduce IntOp.andi
    (andi (cmpi .sge (startsOf s) (broadcastInDim S800000x1 ![] bcast_S_S800000x1 (constantI S_ 32 0#32)))
      (cmpi .sle (startsOf s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The guarded gather of 128-wide rows. -/
def take128 (x : FVec F S50000x128 .f32) (s : IVec S800000 32) : FVec F S800000x128 .f32 :=
  select (broadcastInDim S800000x128 ![0] bcast_S800000_S800000x128_0 (guardOf s))
    (Host.gather gather_S50000x128_S800000x1_S800000x128_1_0_n_n_0_1_1128 x (startsOf s))
    (broadcastInDim S800000x128 ![] bcast_S_S800000x128 (constant S_ .f32 0x7FC00000#32))

/-- The guarded gather of 256-wide rows. -/
def take256 (x : FVec F S50000x256 .f32) (s : IVec S800000 32) : FVec F S800000x256 .f32 :=
  select (broadcastInDim S800000x256 ![0] bcast_S800000_S800000x256_0 (guardOf s))
    (Host.gather gather_S50000x256_S800000x1_S800000x256_1_0_n_n_0_1_1256 x (startsOf s))
    (broadcastInDim S800000x256 ![] bcast_S_S800000x256 (constant S_ .f32 0x7FC00000#32))

/-- Features plus the sum, into every destination node's row, of the gathered rows `u`. -/
def addInto128 (x : FVec F S50000x128 .f32) (d : IVec S800000 32) (u : FVec F S800000x128 .f32) : FVec F S50000x128 .f32 :=
  addf x (Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) u)
def addInto256 (x : FVec F S50000x256 .f32) (d : IVec S800000 32) (u : FVec F S800000x256 .f32) : FVec F S50000x256 .f32 :=
  addf x (Host.scatterAdd scatter_S50000x256_S800000x1_S800000x256_1_0_0_1
    (broadcastInDim S50000x256 ![] bcast_S_S50000x256 (constant S_ .f32 0x00000000#32))
    (broadcastInDim S800000x1 ![0] bcast_S800000_S800000x1_0 d) u)

/-- The linear head: one more product and a bias. -/
def head (h : FVec F S50000x128 .f32) (w : FVec F S128x1 .f32) (b : FVec F S1 .f32) : FVec F S50000x1 .f32 :=
  addf (Host.dotGeneral dot_S50000x128_S128x1_S50000x1_1_0_0_1_n_n none h w)
    (broadcastInDim S50000x1 ![0, 1] bcast_S1x1_S50000x1_0_1 (broadcastInDim S1x1 ![1] bcast_S1_S1x1_1 b))

/-! ## Each stretch, from any contents -/

/-- Contents carried to a buffer's own type and back are the contents: the two transports are along one equation. -/
theorem ofBuf_toBuf {Val : EltTy → Type} {T : BufTy} (x : StableHlo.TRef sig T) (v : T.Contents Val) :
    x.ofBuf (x.toBuf v) = v := by
  obtain ⟨r, rfl, _, _⟩ := x
  rfl

variable (X : Valuation τ sig (Elt F))

theorem s0_v1 : StableHlo.after (hostOps0 (F := F)) X (Proc.devRef .tc main_v1) = srcRow (X (Proc.devRef .tc main_arg2)) := by
  simp only [hostOps0]; after_results; rfl
theorem s0_v3 : StableHlo.after (hostOps0 (F := F)) X (Proc.devRef .tc main_v3) = dstRow (X (Proc.devRef .tc main_arg2)) := by
  simp only [hostOps0]; after_results; rfl

set_option maxHeartbeats 4000000 in
theorem s01_v4 : StableHlo.after (hostOps0_1 (F := F)) X (Proc.devRef .tc main_v4)
    = take128 (X (Proc.devRef .tc main_arg0)) (X (Proc.devRef .tc main_v1)) := by
  simp only [hostOps0_1]; after_results_simp
  simp only [ofBuf_toBuf]
  simp only [TRef.ofBuf, TRef.toBuf, cast_eq]
  rfl

theorem s02_v8 : StableHlo.after (hostOps0_2 (F := F)) X (Proc.devRef .tc main_v8)
    = addInto128 (X (Proc.devRef .tc main_arg0)) (X (Proc.devRef .tc main_v3)) (X (Proc.devRef .tc main_v4)) := by
  simp only [hostOps0_2]; after_results; rfl

set_option maxHeartbeats 4000000 in
theorem s1_v10 : StableHlo.after (hostOps1 (F := F)) X (Proc.devRef .tc main_v10)
    = take256 (X (Proc.devRef .tc main_v9)) (X (Proc.devRef .tc main_v1)) := by
  simp only [hostOps1]; after_results_simp
  simp only [ofBuf_toBuf]
  simp only [TRef.ofBuf, TRef.toBuf, cast_eq]
  rfl

theorem s11_v14 : StableHlo.after (hostOps1_1 (F := F)) X (Proc.devRef .tc main_v14)
    = addInto256 (X (Proc.devRef .tc main_v9)) (X (Proc.devRef .tc main_v3)) (X (Proc.devRef .tc main_v10)) := by
  simp only [hostOps1_1]; after_results; rfl

theorem s2_v19 : StableHlo.after (hostOps2 (F := F)) X (Proc.devRef .tc main_v19)
    = head (X (Proc.devRef .tc main_v15)) (X (Proc.devRef .tc main_arg11)) (X (Proc.devRef .tc main_arg12)) := by
  simp only [hostOps2]; after_results; rfl

end Cert.KernelIdeal.HostChain

end
-- ==== Proof.Boundaries.lean ====
/-
  The contents of the kernel program's buffers where each launch begins and where the program ends, as functions of the
  argument arrays: the first launch finds the features plus their neighbour sum; the second finds the first launch's
  result plus its neighbour sum, over the same edge list; the result is the linear head of the second launch's result.
  A buffer no operation of a stretch writes holds after the stretch what it held before, and a launch changes its own
  arrays only.
-/
import proofs.«411502_j87282325390050_1_alg».proof.Proof.HostChain

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch leaves a buffer none of its operations writes as it found it. -/
macro "unwritten" : tactic =>
  `(tactic| exact StableHlo.after_of_forall_not_mem _ _ (List.forall_iff_forall_mem.mp (by
      simp only [hostOps0, hostOps0_1, hostOps0_2, hostOps1, hostOps1_1, hostOps2, List.flatten_cons, List.flatten_nil, List.append_nil,
        List.cons_append, List.nil_append, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide))))

/-! ## Before the first launch -/

theorem W1_arg0 (c : Dev nD) : W1 m ρ c (Proc.devRef .tc main_arg0) = m ((c : Thread nD τ).loc main_arg0) := by
  refine Eq.trans (b := W0 m ρ c (Proc.devRef .tc main_arg0)) (by unwritten) rfl
theorem W1_v1 (c : Dev nD) : W1 m ρ c (Proc.devRef .tc main_v1) = srcRow (m ((c : Thread nD τ).loc main_arg2)) :=
  s0_v1 (W0 m ρ c)
theorem W1_v3 (c : Dev nD) : W1 m ρ c (Proc.devRef .tc main_v3) = dstRow (m ((c : Thread nD τ).loc main_arg2)) :=
  s0_v3 (W0 m ρ c)

theorem W2_arg0 (c : Dev nD) : W2 m ρ c (Proc.devRef .tc main_arg0) = m ((c : Thread nD τ).loc main_arg0) := by
  refine Eq.trans (b := W1 m ρ c (Proc.devRef .tc main_arg0)) (by unwritten) (W1_arg0 m ρ c)
theorem W2_v1 (c : Dev nD) : W2 m ρ c (Proc.devRef .tc main_v1) = srcRow (m ((c : Thread nD τ).loc main_arg2)) := by
  refine Eq.trans (b := W1 m ρ c (Proc.devRef .tc main_v1)) (by unwritten) (W1_v1 m ρ c)
theorem W2_v3 (c : Dev nD) : W2 m ρ c (Proc.devRef .tc main_v3) = dstRow (m ((c : Thread nD τ).loc main_arg2)) := by
  refine Eq.trans (b := W1 m ρ c (Proc.devRef .tc main_v3)) (by unwritten) (W1_v3 m ρ c)
theorem W2_v4 (c : Dev nD) : W2 m ρ c (Proc.devRef .tc main_v4)
    = take128 (m ((c : Thread nD τ).loc main_arg0)) (srcRow (m ((c : Thread nD τ).loc main_arg2))) := by
  refine (s01_v4 (W1 m ρ c)).trans ?_
  rw [W1_arg0 m ρ c, W1_v1 m ρ c]

/-- The first launch finds, as its feature array, the features plus their neighbour sum. -/
theorem W3_v8 (c : Dev nD) : W3 m ρ c (Proc.devRef .tc main_v8)
    = addInto128 (m ((c : Thread nD τ).loc main_arg0)) (dstRow (m ((c : Thread nD τ).loc main_arg2)))
        (take128 (m ((c : Thread nD τ).loc main_arg0)) (srcRow (m ((c : Thread nD τ).loc main_arg2)))) := by
  refine (s02_v8 (W2 m ρ c)).trans ?_
  rw [W2_arg0 m ρ c, W2_v3 m ρ c, W2_v4 m ρ c]

theorem W3_v1 (c : Dev nD) : W3 m ρ c (Proc.devRef .tc main_v1) = srcRow (m ((c : Thread nD τ).loc main_arg2)) := by
  refine Eq.trans (b := W2 m ρ c (Proc.devRef .tc main_v1)) (by unwritten) (W2_v1 m ρ c)
theorem W3_v3 (c : Dev nD) : W3 m ρ c (Proc.devRef .tc main_v3) = dstRow (m ((c : Thread nD τ).loc main_arg2)) := by
  refine Eq.trans (b := W2 m ρ c (Proc.devRef .tc main_v3)) (by unwritten) (W2_v3 m ρ c)

/-- An argument that no host operation before the first launch writes is there as launched. -/
theorem W3_arg (c : Dev nD) (a : Ref sig .tc)
    (h0 : StableHlo.after (hostOps0 (F := F)) (W0 m ρ c) (Proc.devRef .tc a) = W0 m ρ c (Proc.devRef .tc a))
    (h1 : StableHlo.after (hostOps0_1 (F := F)) (W1 m ρ c) (Proc.devRef .tc a) = W1 m ρ c (Proc.devRef .tc a))
    (h2 : StableHlo.after (hostOps0_2 (F := F)) (W2 m ρ c) (Proc.devRef .tc a) = W2 m ρ c (Proc.devRef .tc a)) :
    W3 m ρ c (Proc.devRef .tc a) = m ((c : Thread nD τ).loc a) :=
  h2.trans (h1.trans h0)

theorem W3_arg3 (c : Dev nD) : W3 m ρ c (Proc.devRef .tc main_arg3) = m ((c : Thread nD τ).loc main_arg3) :=
  W3_arg m ρ c main_arg3 (by unwritten) (by unwritten) (by unwritten)
theorem W3_arg4 (c : Dev nD) : W3 m ρ c (Proc.devRef .tc main_arg4) = m ((c : Thread nD τ).loc main_arg4) :=
  W3_arg m ρ c main_arg4 (by unwritten) (by unwritten) (by unwritten)
theorem W3_arg5 (c : Dev nD) : W3 m ρ c (Proc.devRef .tc main_arg5) = m ((c : Thread nD τ).loc main_arg5) :=
  W3_arg m ρ c main_arg5 (by unwritten) (by unwritten) (by unwritten)
theorem W3_arg6 (c : Dev nD) : W3 m ρ c (Proc.devRef .tc main_arg6) = m ((c : Thread nD τ).loc main_arg6) :=
  W3_arg m ρ c main_arg6 (by unwritten) (by unwritten) (by unwritten)
theorem W3_arg7 (c : Dev nD) : W3 m ρ c (Proc.devRef .tc main_arg7) = m ((c : Thread nD τ).loc main_arg7) :=
  W3_arg m ρ c main_arg7 (by unwritten) (by unwritten) (by unwritten)
theorem W3_arg8 (c : Dev nD) : W3 m ρ c (Proc.devRef .tc main_arg8) = m ((c : Thread nD τ).loc main_arg8) :=
  W3_arg m ρ c main_arg8 (by unwritten) (by unwritten) (by unwritten)
theorem W3_arg9 (c : Dev nD) : W3 m ρ c (Proc.devRef .tc main_arg9) = m ((c : Thread nD τ).loc main_arg9) :=
  W3_arg m ρ c main_arg9 (by unwritten) (by unwritten) (by unwritten)
theorem W3_arg10 (c : Dev nD) : W3 m ρ c (Proc.devRef .tc main_arg10) = m ((c : Thread nD τ).loc main_arg10) :=
  W3_arg m ρ c main_arg10 (by unwritten) (by unwritten) (by unwritten)
theorem W3_arg11 (c : Dev nD) : W3 m ρ c (Proc.devRef .tc main_arg11) = m ((c : Thread nD τ).loc main_arg11) :=
  W3_arg m ρ c main_arg11 (by unwritten) (by unwritten) (by unwritten)
theorem W3_arg12 (c : Dev nD) : W3 m ρ c (Proc.devRef .tc main_arg12) = m ((c : Thread nD τ).loc main_arg12) :=
  W3_arg m ρ c main_arg12 (by unwritten) (by unwritten) (by unwritten)

/-! ## Between the launches -/

/-- A buffer that is not one of the first launch's arrays, and that neither stretch between the launches writes,
    is at the second launch's entry what it was at the first's. -/
theorem W6_of (c : Dev nD) (a : Ref sig .tc) (hne : ∀ w, Pipeline.arrRef spec0 w ≠ a)
    (h4 : StableHlo.after (hostOps1 (F := F)) (W4 m ρ c) (Proc.devRef .tc a) = W4 m ρ c (Proc.devRef .tc a))
    (h5 : StableHlo.after (hostOps1_1 (F := F)) (W5 m ρ c) (Proc.devRef .tc a) = W5 m ρ c (Proc.devRef .tc a)) :
    W6 m ρ c (Proc.devRef .tc a) = W3 m ρ c (Proc.devRef .tc a) :=
  h5.trans (h4.trans (W4_of_ne m ρ c a hne))

theorem W6_arg7 (c : Dev nD) : W6 m ρ c (Proc.devRef .tc main_arg7) = m ((c : Thread nD τ).loc main_arg7) :=
  (W6_of m ρ c main_arg7 (by decide) (by unwritten) (by unwritten)).trans (W3_arg7 m ρ c)
theorem W6_arg8 (c : Dev nD) : W6 m ρ c (Proc.devRef .tc main_arg8) = m ((c : Thread nD τ).loc main_arg8) :=
  (W6_of m ρ c main_arg8 (by decide) (by unwritten) (by unwritten)).trans (W3_arg8 m ρ c)
theorem W6_arg9 (c : Dev nD) : W6 m ρ c (Proc.devRef .tc main_arg9) = m ((c : Thread nD τ).loc main_arg9) :=
  (W6_of m ρ c main_arg9 (by decide) (by unwritten) (by unwritten)).trans (W3_arg9 m ρ c)
theorem W6_arg10 (c : Dev nD) : W6 m ρ c (Proc.devRef .tc main_arg10) = m ((c : Thread nD τ).loc main_arg10) :=
  (W6_of m ρ c main_arg10 (by decide) (by unwritten) (by unwritten)).trans (W3_arg10 m ρ c)
theorem W6_arg11 (c : Dev nD) : W6 m ρ c (Proc.devRef .tc main_arg11) = m ((c : Thread nD τ).loc main_arg11) :=
  (W6_of m ρ c main_arg11 (by decide) (by unwritten) (by unwritten)).trans (W3_arg11 m ρ c)
theorem W6_arg12 (c : Dev nD) : W6 m ρ c (Proc.devRef .tc main_arg12) = m ((c : Thread nD τ).loc main_arg12) :=
  (W6_of m ρ c main_arg12 (by decide) (by unwritten) (by unwritten)).trans (W3_arg12 m ρ c)

theorem W4_v1 (c : Dev nD) : W4 m ρ c (Proc.devRef .tc main_v1) = srcRow (m ((c : Thread nD τ).loc main_arg2)) :=
  (W4_of_ne m ρ c main_v1 (by decide)).trans (W3_v1 m ρ c)
theorem W4_v3 (c : Dev nD) : W4 m ρ c (Proc.devRef .tc main_v3) = dstRow (m ((c : Thread nD τ).loc main_arg2)) :=
  (W4_of_ne m ρ c main_v3 (by decide)).trans (W3_v3 m ρ c)

theorem W5_v9 (c : Dev nD) : W5 m ρ c (Proc.devRef .tc main_v9) = W4 m ρ c (Proc.devRef .tc main_v9) := by unwritten
theorem W5_v3 (c : Dev nD) : W5 m ρ c (Proc.devRef .tc main_v3) = dstRow (m ((c : Thread nD τ).loc main_arg2)) := by
  refine Eq.trans (b := W4 m ρ c (Proc.devRef .tc main_v3)) (by unwritten) (W4_v3 m ρ c)
theorem W5_v10 (c : Dev nD) : W5 m ρ c (Proc.devRef .tc main_v10)
    = take256 (W4 m ρ c (Proc.devRef .tc main_v9)) (srcRow (m ((c : Thread nD τ).loc main_arg2))) := by
  refine (s1_v10 (W4 m ρ c)).trans ?_
  rw [W4_v1 m ρ c]

/-- The second launch finds, as its feature array, the first launch's result plus its neighbour sum. -/
theorem W6_v14 (c : Dev nD) : W6 m ρ c (Proc.devRef .tc main_v14)
    = addInto256 (W4 m ρ c (Proc.devRef .tc main_v9)) (dstRow (m ((c : Thread nD τ).loc main_arg2)))
        (take256 (W4 m ρ c (Proc.devRef .tc main_v9)) (srcRow (m ((c : Thread nD τ).loc main_arg2)))) := by
  refine (s11_v14 (W5 m ρ c)).trans ?_
  rw [W5_v9 m ρ c, W5_v3 m ρ c, W5_v10 m ρ c]

/-! ## After the second launch -/

theorem W7_arg11 (c : Dev nD) : W7 m ρ c (Proc.devRef .tc main_arg11) = m ((c : Thread nD τ).loc main_arg11) :=
  (W7_of_ne m ρ c main_arg11 (by decide)).trans (W6_arg11 m ρ c)
theorem W7_arg12 (c : Dev nD) : W7 m ρ c (Proc.devRef .tc main_arg12) = m ((c : Thread nD τ).loc main_arg12) :=
  (W7_of_ne m ρ c main_arg12 (by decide)).trans (W6_arg12 m ρ c)

/-- The program's result is the linear head of the second launch's result. -/
theorem W8_v19 (c : Dev nD) : W8 m ρ c (Proc.devRef .tc main_v19)
    = head (W7 m ρ c (Proc.devRef .tc main_v15)) (m ((c : Thread nD τ).loc main_arg11)) (m ((c : Thread nD τ).loc main_arg12)) := by
  refine (s2_v19 (W7 m ρ c)).trans ?_
  rw [W7_arg11 m ρ c, W7_arg12 m ρ c]

end Cert.KernelIdeal.HostChain

end
-- ==== Proof.Network.lean ====
/-
  The whole network as ONE function of the argument arrays, and the kernel program's result as that function.

  `network` is: features plus neighbour sum; two-layer perceptron; that plus its neighbour sum; two-layer perceptron;
  linear head. The neighbour sum here gathers WITHOUT a guard: under the precondition the kernel's guard is true on
  every edge, so its guarded gather is this one. The two perceptrons enter as hypotheses about what each launch leaves
  in its result array (they are proved where the launches are read), so this module is about the host program only.
-/
import proofs.«411502_j87282325390050_1_alg».proof.Proof.Boundaries
import proofs.«411502_j87282325390050_1_alg».proof.Proof.Spec

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

/-- Features plus, for every node, the sum of its in-neighbours' rows (128 wide): source rows gathered at the wrapped
    source ids, added into the destination rows. -/
def agg128 {F : FTy → Type} [FloatOps F] (x : FVec F S50000x128 .f32) (e : IVec S2x800000 32) : FVec F S50000x128 .f32 :=
  addInto128 x (dstRow e) (Host.gather gather_S50000x128_S800000x1_S800000x128_1_0_n_n_0_1_1128 x (startsOf (srcRow e)))

/-- The same, 256 wide. -/
def agg256 {F : FTy → Type} [FloatOps F] (x : FVec F S50000x256 .f32) (e : IVec S2x800000 32) : FVec F S50000x256 .f32 :=
  addInto256 x (dstRow e) (Host.gather gather_S50000x256_S800000x1_S800000x256_1_0_n_n_0_1_1256 x (startsOf (srcRow e)))

/-- The network: two graph convolutions and the linear head. -/
def network (x : FVec Ideal S50000x128 .f32) (e : IVec S2x800000 32)
    (W1 : FVec Ideal S128x256 .f32) (b1 : FVec Ideal S256 .f32) (W2 : FVec Ideal S256x256 .f32) (b2 : FVec Ideal S256 .f32)
    (W3 : FVec Ideal S256x256 .f32) (b3 : FVec Ideal S256 .f32) (W4 : FVec Ideal S256x128 .f32) (b4 : FVec Ideal S128 .f32)
    (W5 : FVec Ideal S128x1 .f32) (b5 : FVec Ideal S1 .f32) : FVec Ideal S50000x1 .f32 :=
  head (Cert.Gin.mlp2 (agg256 (Cert.Gin.mlp2 (agg128 x e) W1 b1 W2 b2) e) W3 b3 W4 b4) W5 b5

variable (m : (ℓ : Loc nD τ sig) → Buf (Elt Ideal) ℓ) (ρ : Dev nD → PrngReg)

/-- Where the guard is true on every edge the guarded neighbour sums are the plain ones. -/
theorem addInto_take128 (x : FVec Ideal S50000x128 .f32) (e : IVec S2x800000 32)
    (hg : ∀ g fill : FVec Ideal S800000x128 .f32,
      select (broadcastInDim S800000x128 ![0] bcast_S800000_S800000x128_0 (guardOf (srcRow e))) g fill = g) :
    addInto128 x (dstRow e) (take128 x (srcRow e)) = agg128 x e := by
  unfold take128 agg128
  rw [hg]

theorem addInto_take256 (x : FVec Ideal S50000x256 .f32) (e : IVec S2x800000 32)
    (hg : ∀ g fill : FVec Ideal S800000x256 .f32,
      select (broadcastInDim S800000x256 ![0] bcast_S800000_S800000x256_0 (guardOf (srcRow e))) g fill = g) :
    addInto256 x (dstRow e) (take256 x (srcRow e)) = agg256 x e := by
  unfold take256 agg256
  rw [hg]

/-- The kernel program's result buffer, at the end of its run, is the network of its argument arrays — given what each
    launch leaves in its result array (`h0`, `h1`) and that the guard is true on every edge (`hg128`, `hg256`). -/
theorem result_eq (c : Dev nD)
    (h0 : (dat0 (F := Ideal) (V3 m ρ) c).arrAt 5 cfg0.N
      = Cert.Gin.mlp2 (V3 m ρ c main_v8) (V3 m ρ c main_arg3) (V3 m ρ c main_arg4) (V3 m ρ c main_arg5) (V3 m ρ c main_arg6))
    (h1 : (dat1 (F := Ideal) (V6 m ρ) c).arrAt 5 cfg1.N
      = Cert.Gin.mlp2 (V6 m ρ c main_v14) (V6 m ρ c main_arg7) (V6 m ρ c main_arg8) (V6 m ρ c main_arg9) (V6 m ρ c main_arg10))
    (hg128 : ∀ g fill : FVec Ideal S800000x128 .f32,
      select (broadcastInDim S800000x128 ![0] bcast_S800000_S800000x128_0 (guardOf (srcRow (m ((c : Thread nD τ).loc main_arg2))))) g fill = g)
    (hg256 : ∀ g fill : FVec Ideal S800000x256 .f32,
      select (broadcastInDim S800000x256 ![0] bcast_S800000_S800000x256_0 (guardOf (srcRow (m ((c : Thread nD τ).loc main_arg2))))) g fill = g) :
    W8 m ρ c (Proc.devRef .tc main_v19)
      = network (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  -- the first launch's result array
  have e9 : W4 m ρ c (Proc.devRef .tc main_v9)
      = Cert.Gin.mlp2 (agg128 (m ((c : Thread nD τ).loc main_arg0)) (m ((c : Thread nD τ).loc main_arg2)))
          (m ((c : Thread nD τ).loc main_arg3)) (m ((c : Thread nD τ).loc main_arg4)) (m ((c : Thread nD τ).loc main_arg5))
          (m ((c : Thread nD τ).loc main_arg6)) := by
    refine (W4_arr m ρ c 5).trans (h0.trans ?_)
    rw [show V3 m ρ c main_v8 = _ from W3_v8 m ρ c, show V3 m ρ c main_arg3 = _ from W3_arg3 m ρ c,
      show V3 m ρ c main_arg4 = _ from W3_arg4 m ρ c, show V3 m ρ c main_arg5 = _ from W3_arg5 m ρ c,
      show V3 m ρ c main_arg6 = _ from W3_arg6 m ρ c, addInto_take128 _ _ hg128]
  -- the second launch's result array
  have e15 : W7 m ρ c (Proc.devRef .tc main_v15)
      = Cert.Gin.mlp2 (agg256 (W4 m ρ c (Proc.devRef .tc main_v9)) (m ((c : Thread nD τ).loc main_arg2)))
          (m ((c : Thread nD τ).loc main_arg7)) (m ((c : Thread nD τ).loc main_arg8)) (m ((c : Thread nD τ).loc main_arg9))
          (m ((c : Thread nD τ).loc main_arg10)) := by
    refine (W7_arr m ρ c 5).trans (h1.trans ?_)
    rw [show V6 m ρ c main_v14 = _ from W6_v14 m ρ c, show V6 m ρ c main_arg7 = _ from W6_arg7 m ρ c,
      show V6 m ρ c main_arg8 = _ from W6_arg8 m ρ c, show V6 m ρ c main_arg9 = _ from W6_arg9 m ρ c,
      show V6 m ρ c main_arg10 = _ from W6_arg10 m ρ c, addInto_take256 _ _ hg256]
  rw [W8_v19 m ρ c, e15, e9]
  rfl

end Cert.KernelIdeal.HostChain

end
-- ==== Proof.RefConv.lean ====
/-
  The reference's two graph convolutions end, each, in the two-layer perceptron `Cert.Gin.mlp2` of the aggregated
  features: a `dot_general` over the one contracted axis is the sum over `k` of products, the bias row is broadcast
  down the rows, and `where (z ≥ 0) z (slope · z)` is the leaky rectifier, entry by entry.
-/
import proofs.«411502_j87282325390050_1_alg».proof.Proof.RefRead
import proofs.«411502_j87282325390050_1_alg».proof.Proof.Spec

noncomputable section

namespace Cert.ReferenceIdeal.Conv

open Cert.ReferenceIdeal Cert.ReferenceIdeal.Gen Cert.ReferenceIdeal.ReadP Idealize.ShloMosaic Idealize.ShloMosaic.TcCoe
open Idealize.ShloMosaic.ValueIdx Idealize.SL.Sem Idealize.ShloMosaic.StableHlo

/-- The first convolution's first dense layer, read at row `p`, column `k`: the contraction is the sum over the 128
    input features, the bias row is read at `k`, and the rectifier is the select on the comparison with zero. -/
private theorem conv1_inner (x0 : (⟨S50000x128, .f32⟩ : BufTy).Contents (Elt Ideal)) (x2 : (⟨S2x800000, .i32⟩ : BufTy).Contents (Elt Ideal)) (x3 : (⟨S128x256, .f32⟩ : BufTy).Contents (Elt Ideal))
    (x4 : (⟨S256, .f32⟩ : BufTy).Contents (Elt Ideal)) (p : Fin 50000) (k : Fin 256) :
    val_main_v23 (F := Ideal) x0 x2 x3 x4 (ix2 p k)
      = Cert.Gin.leaky ((∑ l : Fin 128, val_main_v14 (F := Ideal) x0 x2 (ix2 p l) * x3 (ix2 l k)) + x4 (ix1 k)) := by
  have el : ∀ l : Fin 128, lidx_main_v15 (ix2 p k) l = ix2 p l := fun l => funext fun a => Fin.ext (by
    match a with | ⟨0, _⟩ => rfl | ⟨1, _⟩ => rfl)
  have er : ∀ l : Fin 128, ridx_main_v15 (ix2 p k) l = ix2 l k := fun l => funext fun a => Fin.ext (by
    match a with | ⟨0, _⟩ => rfl | ⟨1, _⟩ => rfl)
  have eb : idx_main_v16 (idx_main_v17 (ix2 p k)) = ix1 k := funext fun a => Fin.ext (by
    match a with | ⟨0, _⟩ => rfl)
  rw [val_main_v23_apply, val_main_v20_apply, val_main_v22_apply, val_main_v18_apply, val_main_v15_apply,
    val_main_v17_apply, val_main_v16_apply, val_main_v19_apply, val_main_v21_apply, val_main_cst_1_apply,
    val_main_cst_2_apply]
  simp only [el, er, eb]
  rfl

/-- The first convolution's output stage is the perceptron of its aggregated input stage. -/
theorem conv1 (x0 : (⟨S50000x128, .f32⟩ : BufTy).Contents (Elt Ideal)) (x2 : (⟨S2x800000, .i32⟩ : BufTy).Contents (Elt Ideal)) (x3 : (⟨S128x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal)) :
    val_main_v32 (F := Ideal) x0 x2 x3 x4 x5 x6 = Cert.Gin.mlp2 (val_main_v14 (F := Ideal) x0 x2) x3 x4 x5 x6 := by
  funext i
  obtain ⟨p, q, rfl⟩ : ∃ (p : Fin 50000) (q : Fin 256), i = ix2 p q := ⟨i 0, i 1, eq_ix2 i⟩
  have el : ∀ k : Fin 256, lidx_main_v24 (ix2 p q) k = ix2 p k := fun k => funext fun a => Fin.ext (by
    match a with | ⟨0, _⟩ => rfl | ⟨1, _⟩ => rfl)
  have er : ∀ k : Fin 256, ridx_main_v24 (ix2 p q) k = ix2 k q := fun k => funext fun a => Fin.ext (by
    match a with | ⟨0, _⟩ => rfl | ⟨1, _⟩ => rfl)
  have eb : idx_main_v25 (idx_main_v26 (ix2 p q)) = ix1 q := funext fun a => Fin.ext (by
    match a with | ⟨0, _⟩ => rfl)
  rw [val_main_v32_apply, val_main_v29_apply, val_main_v31_apply, val_main_v27_apply, val_main_v24_apply,
    val_main_v26_apply, val_main_v25_apply, val_main_v28_apply, val_main_v30_apply, val_main_cst_3_apply,
    val_main_cst_4_apply, Cert.Gin.mlp2_apply]
  simp only [el, er, eb, conv1_inner]
  rfl

/-- The second convolution's first dense layer, read at row `p`, column `k`: the same three steps over the 256
    features of its aggregated input. -/
private theorem conv2_inner (x0 : (⟨S50000x128, .f32⟩ : BufTy).Contents (Elt Ideal)) (x2 : (⟨S2x800000, .i32⟩ : BufTy).Contents (Elt Ideal)) (x3 : (⟨S128x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal))
    (x8 : (⟨S256, .f32⟩ : BufTy).Contents (Elt Ideal)) (p : Fin 50000) (k : Fin 256) :
    val_main_v52 (F := Ideal) x0 x2 x3 x4 x5 x6 x7 x8 (ix2 p k)
      = Cert.Gin.leaky ((∑ l : Fin 256, val_main_v43 (F := Ideal) x0 x2 x3 x4 x5 x6 (ix2 p l) * x7 (ix2 l k)) + x8 (ix1 k)) := by
  have el : ∀ l : Fin 256, lidx_main_v44 (ix2 p k) l = ix2 p l := fun l => funext fun a => Fin.ext (by
    match a with | ⟨0, _⟩ => rfl | ⟨1, _⟩ => rfl)
  have er : ∀ l : Fin 256, ridx_main_v44 (ix2 p k) l = ix2 l k := fun l => funext fun a => Fin.ext (by
    match a with | ⟨0, _⟩ => rfl | ⟨1, _⟩ => rfl)
  have eb : idx_main_v45 (idx_main_v46 (ix2 p k)) = ix1 k := funext fun a => Fin.ext (by
    match a with | ⟨0, _⟩ => rfl)
  rw [val_main_v52_apply, val_main_v49_apply, val_main_v51_apply, val_main_v47_apply, val_main_v44_apply,
    val_main_v46_apply, val_main_v45_apply, val_main_v48_apply, val_main_v50_apply, val_main_cst_8_apply,
    val_main_cst_9_apply]
  simp only [el, er, eb]
  rfl

/-- The second convolution's output stage is the perceptron of its aggregated input stage. -/
theorem conv2 (x0 : (⟨S50000x128, .f32⟩ : BufTy).Contents (Elt Ideal)) (x2 : (⟨S2x800000, .i32⟩ : BufTy).Contents (Elt Ideal)) (x3 : (⟨S128x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x128, .f32⟩ : BufTy).Contents (Elt Ideal)) (x10 : (⟨S128, .f32⟩ : BufTy).Contents (Elt Ideal)) :
    val_main_v61 (F := Ideal) x0 x2 x3 x4 x5 x6 x7 x8 x9 x10
      = Cert.Gin.mlp2 (val_main_v43 (F := Ideal) x0 x2 x3 x4 x5 x6) x7 x8 x9 x10 := by
  funext i
  obtain ⟨p, q, rfl⟩ : ∃ (p : Fin 50000) (q : Fin 128), i = ix2 p q := ⟨i 0, i 1, eq_ix2 i⟩
  have el : ∀ k : Fin 256, lidx_main_v53 (ix2 p q) k = ix2 p k := fun k => funext fun a => Fin.ext (by
    match a with | ⟨0, _⟩ => rfl | ⟨1, _⟩ => rfl)
  have er : ∀ k : Fin 256, ridx_main_v53 (ix2 p q) k = ix2 k q := fun k => funext fun a => Fin.ext (by
    match a with | ⟨0, _⟩ => rfl | ⟨1, _⟩ => rfl)
  have eb : idx_main_v54 (idx_main_v55 (ix2 p q)) = ix1 q := funext fun a => Fin.ext (by
    match a with | ⟨0, _⟩ => rfl)
  rw [val_main_v61_apply, val_main_v58_apply, val_main_v60_apply, val_main_v56_apply, val_main_v53_apply,
    val_main_v55_apply, val_main_v54_apply, val_main_v57_apply, val_main_v59_apply, val_main_cst_10_apply,
    val_main_cst_11_apply, Cert.Gin.mlp2_apply]
  simp only [el, er, eb, conv2_inner]
  rfl

end Cert.ReferenceIdeal.Conv

end
-- ==== Proof.RefNetwork.lean ====
/-
  The reference's result is the same network function of the same arguments.

  Stage by stage the reference applies the operations the kernel's program applies on the host — the same slices of
  the edge list, the same wrap of negative source ids, the same gather (without a guard), the same scatter-add into a
  zero array, the same head — so its aggregation stages and its head are those functions by unfolding; its two
  perceptron stages are `Cert.Gin.mlp2` (hypotheses here: they are proved where the stages are read at an index).
-/
import proofs.«411502_j87282325390050_1_alg».proof.Proof.RefRead
import proofs.«411502_j87282325390050_1_alg».proof.Proof.Network

set_option maxRecDepth 16384

noncomputable section

namespace Cert.ReferenceIdeal.Net

open Cert.ReferenceIdeal Cert.ReferenceIdeal.Gen Cert.ReferenceIdeal.ReadP Idealize.ShloMosaic Idealize.ShloMosaic.TcCoe
open Idealize.SL.Sem Idealize.ShloMosaic.StableHlo
open Cert.KernelIdeal.HostChain (agg128 agg256 head network)

section AnyFloats

variable {F : FTy → Type} [FloatOps F]

/-- The first aggregated stage: features plus their neighbour sum. -/
theorem v14_eq (x0 : (⟨S50000x128, .f32⟩ : BufTy).Contents (Elt F)) (x2 : (⟨S2x800000, .i32⟩ : BufTy).Contents (Elt F)) :
    val_main_v14 (F := F) x0 x2 = agg128 x0 x2 := rfl

/-- The second aggregated stage: the first convolution's output plus its neighbour sum, over the same edge list. -/
theorem v43_eq (x0 : (⟨S50000x128, .f32⟩ : BufTy).Contents (Elt F)) (x2 : (⟨S2x800000, .i32⟩ : BufTy).Contents (Elt F)) (x3 : (⟨S128x256, .f32⟩ : BufTy).Contents (Elt F))
    (x4 : (⟨S256, .f32⟩ : BufTy).Contents (Elt F)) (x5 : (⟨S256x256, .f32⟩ : BufTy).Contents (Elt F)) (x6 : (⟨S256, .f32⟩ : BufTy).Contents (Elt F)) :
    val_main_v43 (F := F) x0 x2 x3 x4 x5 x6 = agg256 (val_main_v32 (F := F) x0 x2 x3 x4 x5 x6) x2 := rfl

/-- The result stage: the linear head of the second convolution's output. -/
theorem v65_eq (x0 : (⟨S50000x128, .f32⟩ : BufTy).Contents (Elt F)) (x2 : (⟨S2x800000, .i32⟩ : BufTy).Contents (Elt F)) (x3 : (⟨S128x256, .f32⟩ : BufTy).Contents (Elt F))
    (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F))
    (x8 : (⟨S256, .f32⟩ : BufTy).Contents (Elt F)) (x9 : (⟨S256x128, .f32⟩ : BufTy).Contents (Elt F)) (x10 : (⟨S128, .f32⟩ : BufTy).Contents (Elt F)) (x11 : (⟨S128x1, .f32⟩ : BufTy).Contents (Elt F))
    (x12 : (⟨S1, .f32⟩ : BufTy).Contents (Elt F)) :
    val_main_v65 (F := F) x0 x2 x3 x4 x5 x6 x7 x8 x9 x10 x11 x12
      = head (val_main_v61 (F := F) x0 x2 x3 x4 x5 x6 x7 x8 x9 x10) x11 x12 := rfl

end AnyFloats

/-- On the extended reals the reference's result stage is the network of its arguments, given that its two perceptron
    stages are `Cert.Gin.mlp2` of their aggregated inputs (`hc1`, `hc2`). -/
theorem result_eq (x0 : (⟨S50000x128, .f32⟩ : BufTy).Contents (Elt Ideal)) (x2 : (⟨S2x800000, .i32⟩ : BufTy).Contents (Elt Ideal)) (x3 : (⟨S128x256, .f32⟩ : BufTy).Contents (Elt Ideal))
    (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x128, .f32⟩ : BufTy).Contents (Elt Ideal)) (x10 : (⟨S128, .f32⟩ : BufTy).Contents (Elt Ideal)) (x11 : (⟨S128x1, .f32⟩ : BufTy).Contents (Elt Ideal))
    (x12 : (⟨S1, .f32⟩ : BufTy).Contents (Elt Ideal))
    (hc1 : val_main_v32 (F := Ideal) x0 x2 x3 x4 x5 x6 = Cert.Gin.mlp2 (val_main_v14 (F := Ideal) x0 x2) x3 x4 x5 x6)
    (hc2 : val_main_v61 (F := Ideal) x0 x2 x3 x4 x5 x6 x7 x8 x9 x10
      = Cert.Gin.mlp2 (val_main_v43 (F := Ideal) x0 x2 x3 x4 x5 x6) x7 x8 x9 x10) :
    val_main_v65 (F := Ideal) x0 x2 x3 x4 x5 x6 x7 x8 x9 x10 x11 x12 = network x0 x2 x3 x4 x5 x6 x7 x8 x9 x10 x11 x12 := by
  rw [v65_eq, hc2, v43_eq, hc1, v14_eq]
  rfl

end Cert.ReferenceIdeal.Net

end
-- ==== Proof.lean ====
/-
  A two-layer graph isomorphism network with a linear head, on 50000 nodes and 800000 edges: the kernel's program
  against its reference, over the extended reals.

  Both programs compute  out = head (mlp₂ (h + A h)),  h = mlp₁ (x + A x),  where `A` adds to every node the feature rows of
  its in-neighbours (a gather at the source ids, a scatter-add at the destination ids) and each `mlp` is two dense
  layers with the leaky rectifier. They differ in two places only.
  (1) The perceptrons. The reference multiplies whole matrices on the host; the kernel's program launches a row-tiled
  kernel that casts to bf16 and multiplies tile by tile. On the extended reals a cast is the identity and a matrix
  product is the sum of products, and a row of a perceptron depends on that row of its input alone, so the tiles
  assemble to the reference's matrices entry by entry (`Cert.Gin.mlp2`; no law of arithmetic is needed, and so no
  finiteness).
  (2) The gather. The kernel's program guards it: a row gathered at a source id outside the node range is replaced
  by a fill word, where the reference's gather clamps the id. The precondition bounds every source id by the node
  range (a negative id wrapping once, as array indexing does), so the guard is true on every edge and both programs
  gather the same rows. Destination ids are not constrained: both programs scatter-add with the same operation.
  Everything else is the same host operations on equal operands, carried as opaque functions.
  The word-level kernel's frame, the idealized kernel's frame and (through its run) the reference's frame are the
  generated ones; the idealization rewrote nothing, so `preserves` is trivial.
-/
import proofs.«411502_j87282325390050_1_alg».proof.Defs
import proofs.«411502_j87282325390050_1_alg».proof.Proof.Gen.Kernel
import proofs.«411502_j87282325390050_1_alg».proof.Proof.Gen.Kernel.Skeleton
import proofs.«411502_j87282325390050_1_alg».proof.Proof.Gen.Kernel.Launch
import proofs.«411502_j87282325390050_1_alg».proof.Proof.Gen.Kernel.Points
import proofs.«411502_j87282325390050_1_alg».proof.Proof.Gen.Kernel.Frame
import proofs.«411502_j87282325390050_1_alg».proof.Proof.Gen.KernelIdeal
import proofs.«411502_j87282325390050_1_alg».proof.Proof.Gen.KernelIdeal.Skeleton
import proofs.«411502_j87282325390050_1_alg».proof.Proof.Gen.KernelIdeal.Launch
import proofs.«411502_j87282325390050_1_alg».proof.Proof.Gen.KernelIdeal.Points
import proofs.«411502_j87282325390050_1_alg».proof.Proof.Gen.KernelIdeal.Frame
import proofs.«411502_j87282325390050_1_alg».proof.Proof.Gen.ReferenceIdeal
import proofs.«411502_j87282325390050_1_alg».proof.Proof.Gen.Pre_finite_inputs
import proofs.«411502_j87282325390050_1_alg».proof.Proof.RunValue
import proofs.«411502_j87282325390050_1_alg».proof.Proof.TakeInRange
import proofs.«411502_j87282325390050_1_alg».proof.Proof.Region0
import proofs.«411502_j87282325390050_1_alg».proof.Proof.Region1
import proofs.«411502_j87282325390050_1_alg».proof.Proof.Network
import proofs.«411502_j87282325390050_1_alg».proof.Proof.RefRun
import proofs.«411502_j87282325390050_1_alg».proof.Proof.RefRead
import proofs.«411502_j87282325390050_1_alg».proof.Proof.RefConv
import proofs.«411502_j87282325390050_1_alg».proof.Proof.RefNetwork
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Run from memories agreeing on the arguments, both idealized programs end with the network of the arguments in
    their result arrays. -/
theorem algebraic : Cert.algebraic_KernelIdeal_ReferenceIdeal := by
  intro m ρ m' ρ' hpre hagree
  refine ⟨fun c => Cert.KernelIdeal.HostChain.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunValue.run_value (F := Ideal) m ρ)
    exact Cert.KernelIdeal.HostChain.result_eq m ρ c
      (Cert.KernelIdeal.Conv1.region_value (Cert.KernelIdeal.Gen.V3 m ρ) c)
      (Cert.KernelIdeal.Conv2.region_value (Cert.KernelIdeal.Gen.V6 m ρ) c)
      (fun g fill => Cert.KernelIdeal.Take.select_guard128 _ (Cert.KernelIdeal.Take.inRange_of_pre m hpre c) g fill)
      (fun g fill => Cert.KernelIdeal.Take.select_guard256 _ (Cert.KernelIdeal.Take.inRange_of_pre m hpre c) g fill)
  · refine (θ_run Cert.ReferenceIdeal.defs _ _).mono (fun r h c => ⟨(h c).1.trans ?_, (h c).2⟩)
      (Cert.ReferenceIdeal.ValueP.run (F := Ideal) m' ρ')
    obtain ⟨h0, _, h2, h3, h4, h5, h6, h7, h8, h9, h10, h11, h12⟩ := hagree c
    rw [Cert.ReferenceIdeal.ReadP.val_main_v65_eq, h0, h2, h3, h4, h5, h6, h7, h8, h9, h10, h11, h12]
    exact Cert.ReferenceIdeal.Net.result_eq _ _ _ _ _ _ _ _ _ _ _ _
      (Cert.ReferenceIdeal.Conv.conv1 _ _ _ _ _ _) (Cert.ReferenceIdeal.Conv.conv2 _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
